-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x127 : Shape := ⟨3, ![2, 2048, 127]⟩
abbrev S128 : Shape := ⟨1, ![128]⟩
abbrev S_ : Shape := ⟨0, ![]⟩

class Facts : Prop where
  bcast_S_S2x2048x127 : S_.BroadcastsInDim S2x2048x127 (![] : Fin 0 → Fin S2x2048x127.rank)
  reducesTo_S2x2048x127_S_d0_1_2 : S2x2048x127.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S2x2048x127 .f32) (main_arg1 : FVec F S128 .f32) : IVec S_ 1 :=
  let main_v0 : FVec F S2x2048x127 .f32 := Host.absf main_arg0
  let main_cst : FVec F S_ .f32 := constant S_ .f32 0x7F800000#32
  let main_v1 : FVec F S2x2048x127 .f32 := broadcastInDim S2x2048x127 ![] bcast_S_S2x2048x127 main_cst
  let main_v2 : IVec S2x2048x127 1 := cmpf .olt main_v0 main_v1
  let main_c : IVec S_ 1 := constantI S_ 1 1#1
  let main_v3 : IVec S_ 1 := (fun x v => Host.reduce IntOp.andi x v reducesTo_S2x2048x127_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S2x2048x127 : Shape := ⟨3, ![2, 2048, 127]⟩
abbrev S128 : Shape := ⟨1, ![128]⟩
abbrev S2x2048x1 : Shape := ⟨3, ![2, 2048, 1]⟩
abbrev S_ : Shape := ⟨0, ![]⟩
abbrev S2x2048x128 : Shape := ⟨3, ![2, 2048, 128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S2x2048x128x128 : Shape := ⟨4, ![2, 2048, 128, 128]⟩
abbrev S1x64x128 : Shape := ⟨3, ![1, 64, 128]⟩
abbrev S1x64x128x128 : Shape := ⟨4, ![1, 64, 128, 128]⟩
abbrev S64x128 : Shape := ⟨2, ![64, 128]⟩
abbrev S64x128x1 : Shape := ⟨3, ![64, 128, 1]⟩
abbrev S1x128x128 : Shape := ⟨3, ![1, 128, 128]⟩
abbrev S64x128x128 : Shape := ⟨3, ![64, 128, 128]⟩

abbrev nBuf : Space → Nat
  | .hbm => 45
  | .vmem => 5
  | .smem => 0
  | _ => 0

abbrev bufTy : (tb : Table) → Fin (tcTables nBuf tb) → BufTy
  | .hbm, ⟨0, _⟩ => ⟨S2x2048x127, .f32⟩
  | .hbm, ⟨1, _⟩ => ⟨S128, .f32⟩
  | .hbm, ⟨2, _⟩ => ⟨S2x2048x1, .f32⟩
  | .hbm, ⟨3, _⟩ => ⟨S_, .f32⟩
  | .hbm, ⟨4, _⟩ => ⟨S2x2048x1, .f32⟩
  | .hbm, ⟨5, _⟩ => ⟨S2x2048x128, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S_, .i32⟩
  | .hbm, ⟨28, _⟩ => ⟨S_, .i1⟩
  | .hbm, ⟨29, _⟩ => ⟨S128x128, .i1⟩
  | .hbm, ⟨30, _⟩ => ⟨S128x128, .i1⟩
  | .hbm, ⟨31, _⟩ => ⟨S128x128, .i1⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i1⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S128x128, .f32⟩
  | .hbm, ⟨44, _⟩ => ⟨S2x2048x128x128, .f32⟩
  | .local _ .vmem, ⟨0, _⟩ => ⟨S1x64x128, .f32⟩
  | .local _ .vmem, ⟨1, _⟩ => ⟨S1x64x128, .f32⟩
  | .local _ .vmem, ⟨2, _⟩ => ⟨S128x128, .f32⟩
  | .local _ .vmem, ⟨3, _⟩ => ⟨S1x64x128x128, .f32⟩
  | .local _ .vmem, ⟨4, _⟩ => ⟨S1x64x128x128, .f32⟩
  | _, _ => ⟨S2x2048x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x2048x127_S2x2048x1_0_0_0 : S2x2048x127.Slices ![0, 0, 0] S2x2048x1
  bcast_S_S2x2048x1 : S_.BroadcastsInDim S2x2048x1 (![] : Fin 0 → Fin S2x2048x1.rank)
  concatenates_S2x2048x127_S2x2048x1_S2x2048x128_d2 : Shape.Concatenates [S2x2048x127, S2x2048x1] S2x2048x128 2
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128_S64x128x1 : S64x128.ShapeCasts S64x128x1
  shapeCasts_S128x128_S1x128x128 : S128x128.ShapeCasts S1x128x128
  broadcasts_S64x128x1_S64x128x128 : S64x128x1.Broadcasts S64x128x128
  broadcasts_S1x128x128_S64x128x128 : S1x128x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  gather_S128_S128x128x1_S128x128_n_0_n_n_0_2_1_wf : GatherDims.WF S128 S128x128x1 S128x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S2x2048x128.size a
  hwx0_0 : ∀ i : grid0.Coords, EltTy.bits .f32 = 32 ∨ (Rect.block (s := S2x2048x128) S1x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128x128.size a ≤ S2x2048x128x128.size a
  hwx0_2 : ∀ i : grid0.Coords, EltTy.bits .f32 = 32 ∨ (Rect.block (s := S2x2048x128x128) S1x64x128x128.size (cc0_transform_2 i) (hinb0_2 i)).WholeWords (EltTy.packing .f32)

variable [Facts₀]

def gather_S128_S128x128x1_S128x128_n_0_n_n_0_2_1 : GatherDims S128 S128x128x1 S128x128 where
  offsetDims := []
  collapsedSliceDims := [0]
  operandBatchingDims := []
  startIndicesBatchingDims := []
  startIndexMap := [0]
  indexVectorDim := 2
  sliceSizes := ![1]
  wf := gather_S128_S128x128x1_S128x128_n_0_n_n_0_2_1_wf

abbrev win0_0 : Pipeline.Window sig grid0 :=
  Pipeline.Window.ofSpec (Memref.whole main_v2) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x127 : Shape := ⟨3, ![2, 2048, 127]⟩
abbrev S128 : Shape := ⟨1, ![128]⟩
abbrev S2x2048x1 : Shape := ⟨3, ![2, 2048, 1]⟩
abbrev S_ : Shape := ⟨0, ![]⟩
abbrev S2x2048x128 : Shape := ⟨3, ![2, 2048, 128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S2x2048x128x1 : Shape := ⟨4, ![2, 2048, 128, 1]⟩
abbrev S1x1x128x128 : Shape := ⟨4, ![1, 1, 128, 128]⟩
abbrev S2x2048x128x128 : Shape := ⟨4, ![2, 2048, 128, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x127, .f32⟩
  | .hbm, ⟨1, _⟩ => ⟨S128, .f32⟩
  | .hbm, ⟨2, _⟩ => ⟨S2x2048x1, .f32⟩
  | .hbm, ⟨3, _⟩ => ⟨S_, .f32⟩
  | .hbm, ⟨4, _⟩ => ⟨S2x2048x1, .f32⟩
  | .hbm, ⟨5, _⟩ => ⟨S2x2048x128, .f32⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S_, .i32⟩
  | .hbm, ⟨28, _⟩ => ⟨S_, .i1⟩
  | .hbm, ⟨29, _⟩ => ⟨S128x128, .i1⟩
  | .hbm, ⟨30, _⟩ => ⟨S128x128, .i1⟩
  | .hbm, ⟨31, _⟩ => ⟨S128x128, .i1⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i1⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S128x128, .f32⟩
  | .hbm, ⟨44, _⟩ => ⟨S2x2048x128x1, .f32⟩
  | .hbm, ⟨45, _⟩ => ⟨S1x1x128x128, .f32⟩
  | .hbm, ⟨46, _⟩ => ⟨S2x2048x128x128, .f32⟩
  | .hbm, ⟨47, _⟩ => ⟨S2x2048x128x128, .f32⟩
  | .hbm, ⟨48, _⟩ => ⟨S2x2048x128x128, .f32⟩
  | _, _ => ⟨S2x2048x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_c_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]

class Facts₀ : Prop where
  slices_S2x2048x127_S2x2048x1_0_0_0 : S2x2048x127.Slices ![0, 0, 0] S2x2048x1
  bcast_S_S2x2048x1 : S_.BroadcastsInDim S2x2048x1 (![] : Fin 0 → Fin S2x2048x1.rank)
  concatenates_S2x2048x127_S2x2048x1_S2x2048x128_d2 : Shape.Concatenates [S2x2048x127, S2x2048x1] S2x2048x128 2
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S2x2048x128_S2x2048x128x1_0_1_2 : S2x2048x128.BroadcastsInDim S2x2048x128x1 (![0, 1, 2] : Fin 3 → Fin S2x2048x128x1.rank)
  bcast_S128x128_S1x1x128x128_2_3 : S128x128.BroadcastsInDim S1x1x128x128 (![2, 3] : Fin 2 → Fin S1x1x128x128.rank)
  bcast_S2x2048x128x1_S2x2048x128x128_0_1_2_3 : S2x2048x128x1.BroadcastsInDim S2x2048x128x128 (![0, 1, 2, 3] : Fin 4 → Fin S2x2048x128x128.rank)
  bcast_S1x1x128x128_S2x2048x128x128_0_1_2_3 : S1x1x128x128.BroadcastsInDim S2x2048x128x128 (![0, 1, 2, 3] : Fin 4 → Fin S2x2048x128x128.rank)
  gather_S128_S128x128x1_S128x128_n_0_n_n_0_2_1_wf : GatherDims.WF S128 S128x128x1 S128x128 [] [0] [] [0] [] 2 ![1]

variable [Facts₀]

def gather_S128_S128x128x1_S128x128_n_0_n_n_0_2_1 : GatherDims S128 S128x128x1 S128x128 where
  offsetDims := []
  collapsedSliceDims := [0]
  operandBatchingDims := []
  startIndicesBatchingDims := []
  startIndexMap := [0]
  indexVectorDim := 2
  sliceSizes := ![1]
  wf := gather_S128_S128x128x1_S128x128_n_0_n_n_0_2_1_wf

class Facts : Prop extends Facts₀ where

variable [Facts]
-- ==== Proof.Outer.lean ====
/-
  The function both programs compute, and the reference's spelling of it.

  For an array `X` of shape [2, 2048, 128] and a matrix `W` of shape [128, 128] the result at (b, t, i, j) is the
  product `X (b, t, i) * W (i, j)`: every entry of the last axis of `X` scales one row of `W`. Nothing is summed, so
  the statement holds for any float values with their own multiplication and no law of arithmetic is used.

  The reference writes it with four broadcasts: `X` gets a trailing unit axis and is repeated along it, `W` gets two
  leading unit axes and is repeated along them, and the two [2, 2048, 128, 128] arrays are multiplied entry by entry.
-/
import Idealize.ShloMosaic.Lib.ValueIdx
import Idealize.ShloMosaic.Lib.Pipeline.Value

noncomputable section

namespace OuterRows

open Idealize.ShloMosaic Idealize.ShloMosaic.ValueIdx

variable {F : FTy → Type} [FloatOps F]

abbrev SX : Shape := ⟨3, ![2, 2048, 128]⟩
abbrev SW : Shape := ⟨2, ![128, 128]⟩
abbrev SX1 : Shape := ⟨4, ![2, 2048, 128, 1]⟩
abbrev SW11 : Shape := ⟨4, ![1, 1, 128, 128]⟩
abbrev SO : Shape := ⟨4, ![2, 2048, 128, 128]⟩

/-- Entry (b, t, i, j) is `X (b, t, i) * W (i, j)`. -/
def outer (X : FVec F SX .f32) (W : FVec F SW .f32) : FVec F SO .f32 :=
  fun y => FloatOps.mulf (X (ix3 (y 0 : Fin 2) (y 1 : Fin 2048) (y 2 : Fin 128))) (W (ix2 (y 2 : Fin 128) (y 3 : Fin 128)))

theorem outer_apply (X : FVec F SX .f32) (W : FVec F SW .f32) (b : Fin 2) (t : Fin 2048) (i j : Fin 128) :
    outer X W (ix4 b t i j) = FloatOps.mulf (X (ix3 b t i)) (W (ix2 i j)) := rfl

/-- `X` with a trailing unit axis, repeated 128 times along it, read at (b, t, i, j): the entry (b, t, i). -/
theorem repeatLast_apply (h1 : SX.BroadcastsInDim SX1 ![0, 1, 2]) (h2 : SX1.BroadcastsInDim SO ![0, 1, 2, 3])
    (X : FVec F SX .f32) (b : Fin 2) (t : Fin 2048) (i j : Fin 128) :
    broadcastInDim SO ![0, 1, 2, 3] h2 (broadcastInDim SX1 ![0, 1, 2] h1 X) (ix4 b t i j) = X (ix3 b t i) := by
  refine (broadcastInDim_apply _ h2 _ (ix4 b t i j) (ix4 b t i (0 : Fin 1))
    (fun a => match a with | ⟨0, _⟩ => rfl | ⟨1, _⟩ => rfl | ⟨2, _⟩ => rfl | ⟨3, _⟩ => rfl)).trans ?_
  exact broadcastInDim_apply _ h1 _ (ix4 b t i (0 : Fin 1)) (ix3 b t i)
    (fun a => match a with | ⟨0, _⟩ => rfl | ⟨1, _⟩ => rfl | ⟨2, _⟩ => rfl)

/-- `W` with two leading unit axes, repeated along both, read at (b, t, i, j): the entry (i, j). -/
theorem repeatLead_apply (h1 : SW.BroadcastsInDim SW11 ![2, 3]) (h2 : SW11.BroadcastsInDim SO ![0, 1, 2, 3])
    (W : FVec F SW .f32) (b : Fin 2) (t : Fin 2048) (i j : Fin 128) :
    broadcastInDim SO ![0, 1, 2, 3] h2 (broadcastInDim SW11 ![2, 3] h1 W) (ix4 b t i j) = W (ix2 i j) := by
  refine (broadcastInDim_apply _ h2 _ (ix4 b t i j) (ix4 (0 : Fin 1) (0 : Fin 1) i j)
    (fun a => match a with | ⟨0, _⟩ => rfl | ⟨1, _⟩ => rfl | ⟨2, _⟩ => rfl | ⟨3, _⟩ => rfl)).trans ?_
  exact broadcastInDim_apply _ h1 _ (ix4 (0 : Fin 1) (0 : Fin 1) i j) (ix2 i j)
    (fun a => match a with | ⟨0, _⟩ => rfl | ⟨1, _⟩ => rfl)

/-- The reference's product of the two repeated arrays is `outer X W`. -/
theorem mul_repeats_eq_outer (hx1 : SX.BroadcastsInDim SX1 ![0, 1, 2]) (hx2 : SX1.BroadcastsInDim SO ![0, 1, 2, 3])
    (hw1 : SW.BroadcastsInDim SW11 ![2, 3]) (hw2 : SW11.BroadcastsInDim SO ![0, 1, 2, 3])
    (X : FVec F SX .f32) (W : FVec F SW .f32) :
    mulf (broadcastInDim SO ![0, 1, 2, 3] hx2 (broadcastInDim SX1 ![0, 1, 2] hx1 X))
      (broadcastInDim SO ![0, 1, 2, 3] hw2 (broadcastInDim SW11 ![2, 3] hw1 W)) = outer X W := by
  funext y
  obtain ⟨b, t, i, j, rfl⟩ : ∃ (b : Fin 2) (t : Fin 2048) (i j : Fin 128), y = ix4 b t i j :=
    ⟨y 0, y 1, y 2, y 3, eq_ix4 y⟩
  show FloatOps.mulf (broadcastInDim SO ![0, 1, 2, 3] hx2 (broadcastInDim SX1 ![0, 1, 2] hx1 X) (ix4 b t i j))
      (broadcastInDim SO ![0, 1, 2, 3] hw2 (broadcastInDim SW11 ![2, 3] hw1 W) (ix4 b t i j)) = _
  rw [repeatLast_apply hx1 hx2 X b t i j, repeatLead_apply hw1 hw2 W b t i j]
  rfl

end OuterRows

end
-- ==== Proof.SharedInputs.lean ====
/-
  What both programs do to their arguments before anything is multiplied, as two functions.

  `padOnes a` appends a column of ones along the last axis of `a : [2, 2048, 127]`, giving [2, 2048, 128].

  `circ w` is the matrix whose (i, j) entry is `w ((i + j) mod 128)`, for `w : [128]`. The index matrix is built from
  two iotas: their sum i + j, reduced by the floor modulus (the truncated remainder, moved up by the modulus where the
  remainder's sign differs from the modulus's), then moved up by 128 once more where it is negative (the wrap of a
  negative index), and last used as the start index of a one-element gather. Each step is the operation the programs
  print for it, in the same order and with the same operands, so that each program's own text is this term.

  Neither function is ever evaluated: the two programs apply the same chain, and the certificate only needs that they do.
-/
import Idealize.ShloMosaic.PureOps

noncomputable section

namespace SharedInputs

open Idealize.ShloMosaic

variable {F : FTy → Type} [FloatOps F]

abbrev S0 : Shape := ⟨0, ![]⟩
abbrev SA : Shape := ⟨3, ![2, 2048, 127]⟩
abbrev SOne : Shape := ⟨3, ![2, 2048, 1]⟩
abbrev SX : Shape := ⟨3, ![2, 2048, 128]⟩
abbrev SV : Shape := ⟨1, ![128]⟩
abbrev SCol : Shape := ⟨2, ![128, 1]⟩
abbrev SRow : Shape := ⟨2, ![1, 128]⟩
abbrev SW : Shape := ⟨2, ![128, 128]⟩
abbrev SIdx : Shape := ⟨3, ![128, 128, 1]⟩

theorem bc_one : S0.BroadcastsInDim SOne (![] : Fin 0 → Fin SOne.rank) := by decide
theorem cat_last : Shape.Concatenates [SA, SOne] SX 2 := by decide
theorem bc_col : SV.BroadcastsInDim SCol (![0] : Fin 1 → Fin SCol.rank) := by decide
theorem bc_row : SV.BroadcastsInDim SRow (![1] : Fin 1 → Fin SRow.rank) := by decide
theorem bc_col_w : SCol.BroadcastsInDim SW (![0, 1] : Fin 2 → Fin SW.rank) := by decide
theorem bc_row_w : SRow.BroadcastsInDim SW (![0, 1] : Fin 2 → Fin SW.rank) := by decide
theorem bc_w : S0.BroadcastsInDim SW (![] : Fin 0 → Fin SW.rank) := by decide
theorem bc_idx : SW.BroadcastsInDim SIdx (![0, 1] : Fin 2 → Fin SIdx.rank) := by decide
theorem takeOne_wf : GatherDims.WF SV SIdx SW [] [0] [] [0] [] 2 ![1] := by decide

/-- `a` with a column of ones appended along the last axis. -/
def padOnes (a : FVec F SA .f32) : FVec F SX .f32 :=
  concatenate SX 2 [⟨SA, a⟩, ⟨SOne, broadcastInDim SOne ![] bc_one (constant S0 .f32 0x3F800000#32)⟩] cat_last

/-- The matrix of sums: entry (i, j) is i + j. -/
def rowPlusCol : IVec SW 32 :=
  addi (broadcastInDim SW ![0, 1] bc_col_w (broadcastInDim SCol ![0] bc_col (iotaInDim SV 32 0)))
    (broadcastInDim SW ![0, 1] bc_row_w (broadcastInDim SRow ![1] bc_row (iotaInDim SV 32 0)))

/-- The modulus 128, replaced by 1 if it were 0. -/
def modulus : IVec S0 32 :=
  select (cmpi .eq (id (constantI S0 32 128#32)) (constantI S0 32 0#32)) (constantI S0 32 1#32) (id (constantI S0 32 128#32))

/-- The truncated remainder of i + j by the modulus. -/
def truncRem : IVec SW 32 := Host.remsi rowPlusCol (broadcastInDim SW ![] bc_w modulus)

/-- The floor modulus: the remainder, moved up by the modulus where it is nonzero and its sign is not the modulus's. -/
def floorMod : IVec SW 32 :=
  select
    (andi
      (cmpi .ne (cmpi .slt truncRem (broadcastInDim SW ![] bc_w (constantI S0 32 0#32)))
        (broadcastInDim SW ![] bc_w (cmpi .slt modulus (constantI S0 32 0#32))))
      (cmpi .ne truncRem (broadcastInDim SW ![] bc_w (constantI S0 32 0#32))))
    (addi truncRem (broadcastInDim SW ![] bc_w modulus))
    truncRem

/-- A negative index counts from the end: moved up by 128. -/
def wrapped : IVec SW 32 :=
  select (cmpi .slt floorMod (broadcastInDim SW ![] bc_w (constantI S0 32 0#32)))
    (addi floorMod (broadcastInDim SW ![] bc_w (constantI S0 32 128#32)))
    floorMod

/-- One element of a vector per start index. -/
def takeOne : GatherDims SV SIdx SW where
  offsetDims := []
  collapsedSliceDims := [0]
  operandBatchingDims := []
  startIndicesBatchingDims := []
  startIndexMap := [0]
  indexVectorDim := 2
  sliceSizes := ![1]
  wf := takeOne_wf

/-- The matrix with `w ((i + j) mod 128)` at (i, j). -/
def circ (w : FVec F SV .f32) : FVec F SW .f32 :=
  Host.gather takeOne w (broadcastInDim SIdx ![0, 1] bc_idx wrapped)

end SharedInputs

end
-- ==== Proof.KernelValue.lean ====
/-
  What the kernel leaves in its result array.

  The grid has 2 × 32 points; point (b, s) reads rows 64 s … 64 s + 63 of batch b of the padded input `X` (a
  [1, 64, 128] block), the whole matrix `W` ([128, 128], the same block at every point), and writes the
  [1, 64, 128, 128] block of the result at batch b, rows 64 s … 64 s + 63. Inside the block, entry (0, r, i, j) is the
  product of the input block's (0, r, i) and the matrix's (i, j). Read through the blocks' positions in their arrays,
  that is entry (b, 64 s + r, i, j) of `outer X W`; the blocks tile the result array, so the array ends at `outer X W`.

  `X` and `W` themselves are what the host operations before the region computed: `padOnes` of the first argument and
  `circ` of the second.
-/
import proofs.«140977_j82446192214214_1_alg».proof.Proof.Gen.KernelIdeal.Value
import proofs.«140977_j82446192214214_1_alg».proof.Proof.Outer
import proofs.«140977_j82446192214214_1_alg».proof.Proof.SharedInputs
import Idealize.ShloMosaic.Lib.StableHlo.Run
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The body's block at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, at a block index: the product of the input block's entry at the first
    three coordinates and the matrix's entry at the last two. -/
theorem out_apply (x0 : Vec F S1x64x128 .f32) (x1 : Vec F S128x128 .f32) (y : S1x64x128x128.Idx) :
    out0_2 x0 x1 y = FloatOps.mulf (x0 (Value.ix2_0 y)) (x1 (Value.ix2_1 y)) := by
  unfold out0_2
  rw [Value.canon2_eq, View.ld_unit_zero (S := S1x64x128) hz3, View.ld_unit_zero (S := S128x128) hz2]

/-! ## The blocks' positions -/

/-- The printed index maps over the grid: the input block moves with the output block on the first two axes and sits
    at 0 on the third; the matrix's block never moves; the output block sits at 0 on its last two axes. -/
theorem idx_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 2) = 0
    ∧ win0_1.index t (1 : Fin 2) = 0
    ∧ win0_2.index t (2 : Fin 4) = 0
    ∧ win0_2.index t (3 : Fin 4) = 0
    ∧ win0_2.index t (0 : Fin 4) ≤ 1
    ∧ win0_2.index t (1 : Fin 4) ≤ 31 :=
  (by decide +kernel : ∀ t : Fin grid0.N, _)

/-- Every (batch, row tile) pair is some point's output block. -/
theorem idx_onto : ∀ (q0 : Fin 2) (q1 : Fin 32), ∃ t : Fin cfg0.N, win0_2.index t = ![q0.val, q1.val, 0, 0] :=
  (by decide +kernel : ∀ (q0 : Fin 2) (q1 : Fin 32), ∃ t : Fin grid0.N, win0_2.index t = ![q0.val, q1.val, 0, 0])

/-! ## What a point writes back -/

/-- Point `t` writes back block `t` of `outer X W`, `X` and `W` the two arrays as the region finds them. -/
theorem flushed_eq (c : Dev nD) (t : Fin cfg0.N) :
    (dats m 0 c).flushed 2 t
      = ((cfg0.win 2).blk t).view.read (Elt F) (OuterRows.outer (F := F) (V m c main_v2) (V m c main_v17)) := by
  rw [Value.flushed2]
  obtain ⟨e0, e1, e2, e3, e4, e5, e6, e7, e8⟩ := idx_facts t
  funext j
  show out0_2 (iblk m c 0 t) (iblk m c 1 t) j = OuterRows.outer (F := F) (V m c main_v2) (V m c main_v17) (((cfg0.win 2).blk t).view.emb j)
  rw [out_apply]
  have hj0 : (j 0).val < 1 := (j 0).isLt
  have hj1 : (j 1).val < 64 := (j 1).isLt
  have hj2 : (j 2).val < 128 := (j 2).isLt
  have hj3 : (j 3).val < 128 := (j 3).isLt
  -- the input block's entry is the array's at the output block's first three coordinates
  have h0 : iblk m c 0 t (Value.ix2_0 j)
      = V m c main_v2 (ix3 ((((cfg0.win 2).blk t).view.emb j) 0 : Fin 2) ((((cfg0.win 2).blk t).view.emb j) 1 : Fin 2048)
          ((((cfg0.win 2).blk t).view.emb j) 2 : Fin 128)) := by
    show V m c main_v2 (((cfg0.win 0).blk t).view.emb (Value.ix2_0 j)) = _
    refine congrArg (V m c main_v2) (funext fun a => Fin.ext ?_)
    match a with
    | ⟨0, _⟩ => show win0_0.index t (0 : Fin 3) * 1 + 1 * 0 = win0_2.index t (0 : Fin 4) * 1 + 1 * (j 0).val; omega
    | ⟨1, _⟩ => show win0_0.index t (1 : Fin 3) * 64 + 1 * (j 1).val = win0_2.index t (1 : Fin 4) * 64 + 1 * (j 1).val; omega
    | ⟨2, _⟩ => show win0_0.index t (2 : Fin 3) * 128 + 1 * (j 2).val = win0_2.index t (2 : Fin 4) * 128 + 1 * (j 2).val; omega
  -- the matrix's block is the whole matrix, read at the output block's last two coordinates
  have h1 : iblk m c 1 t (Value.ix2_1 j)
      = V m c main_v17 (ix2 ((((cfg0.win 2).blk t).view.emb j) 2 : Fin 128) ((((cfg0.win 2).blk t).view.emb j) 3 : Fin 128)) := by
    show V m c main_v17 (((cfg0.win 1).blk t).view.emb (Value.ix2_1 j)) = _
    refine congrArg (V m c main_v17) (funext fun a => Fin.ext ?_)
    match a with
    | ⟨0, _⟩ => show win0_1.index t (0 : Fin 2) * 128 + 1 * (j 2).val = win0_2.index t (2 : Fin 4) * 128 + 1 * (j 2).val; omega
    | ⟨1, _⟩ => show win0_1.index t (1 : Fin 2) * 128 + 1 * (j 3).val = win0_2.index t (3 : Fin 4) * 128 + 1 * (j 3).val; omega
  rw [h0, h1]
  rfl

/-! ## The blocks tile the result array -/

/-- An index of the array is in point `t`'s block iff each coordinate is in the block's range on its axis. -/
theorem mem_blk (t : Fin cfg0.N) (i : S2x2048x128x128.Idx) :
    i ∈ ((cfg0.win 2).blk t).view.set ↔ ∀ a : Fin 4, win0_2.index t a * S1x64x128x128.size a ≤ (i a).val
      ∧ (i a).val < win0_2.index t a * S1x64x128x128.size a + S1x64x128x128.size a := by
  show i ∈ ((View.whole main_v18).slice (win0_2.rect t)).set ↔ _
  rw [View.set_slice_whole, Rect.mem_set_unit]
  exact Iff.rfl

/-- Index (b, r, i, j) lies in the block of the point with batch b and row tile r / 64. -/
theorem cover (i : S2x2048x128x128.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 128 := (i 2).isLt
  have hi3 : (i 3).val < 128 := (i 3).isLt
  obtain ⟨t, ht⟩ := idx_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- The result array after the run is `outer X W`. -/
theorem final (c : Dev nD) :
    (dats m 0 c).arrAt 2 cfg0.N = OuterRows.outer (F := F) (V m c main_v2) (V m c main_v17) :=
  (dats m 0 c).arrAt_eq_of_cover 2 (OuterRows.outer (F := F) (V m c main_v2) (V m c main_v17))
    (fun t _ => flushed_eq m c t) cover

/-! ## The two arrays the region finds -/

/-- The padded input is `padOnes` of the first argument. -/
theorem x_eq (c : Dev nD) :
    (V m c main_v2 : S2x2048x128.Idx → F .f32) = SharedInputs.padOnes (F := F) (m ((c : Thread nD τ).loc main_arg0)) := by
  dsimp only [Gen.V]
  simp only [Gen.hostOps0, Gen.hostOps0_1, Gen.hostOps0_2, List.flatten_cons, List.flatten_nil, List.append_nil,
    List.cons_append, List.nil_append]
  after_results
  rfl

/-- The matrix is `circ` of the second argument. -/
theorem w_eq (c : Dev nD) :
    (V m c main_v17 : S128x128.Idx → F .f32) = SharedInputs.circ (F := F) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  rfl

/-! ## The run, read -/

/-- The kernel program's run: the result array at `outer (padOnes a) (circ w)` of the launch contents, the arguments
    unchanged. -/
theorem run : θ_run defs (onTc (τ := τ) (main (F := F))) ⟨m, fun _ => 0, ρ⟩ fun r => ∀ c : Dev nD,
      r.2.mem ((c : Thread nD τ).loc main_v18)
          = OuterRows.outer (SharedInputs.padOnes (F := F) (m ((c : Thread nD τ).loc main_arg0)))
              (SharedInputs.circ (F := F) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [x_eq, w_eq])), (h c).2⟩)
    (Value.run_blocks m ρ)

end Cert.KernelIdeal.KernelValue

end
-- ==== Proof.RefRun.lean ====
/-
  The reference program's run, and its result as a function of the arguments.

  The reference's @main is a straight line of host operations once its call of the remainder function (which itself
  calls a three-way select) is written out at the call site over the call's own buffers: forty-seven operations.
  Every weakly fair execution of such a line terminates with each buffer at the operations' fold over the launch
  contents. Read at the result buffer, the fold is the product of two repeated arrays: the first argument with a column
  of ones appended (`padOnes`), repeated along a new last axis, and the circulant matrix of the second argument
  (`circ`), repeated along two new leading axes; that product is `outer (padOnes a) (circ w)`.
-/
import proofs.«140977_j82446192214214_1_alg».proof.Proof.Gen.ReferenceIdeal
import proofs.«140977_j82446192214214_1_alg».proof.Proof.Outer
import proofs.«140977_j82446192214214_1_alg».proof.Proof.SharedInputs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the remainder call (and the select it calls) written out over the call's buffers. -/
abbrev ops : List (HloOp τ sig (Elt F)) :=
  [ unary main_arg0 main_v0 ((extractStridedSlice S2x2048x1 ![0, 0, 0] · slices_S2x2048x127_S2x2048x1_0_0_0) : (⟨S2x2048x127, .f32⟩ : BufTy).Contents (Elt F) → (⟨S2x2048x1, .f32⟩ : BufTy).Contents (Elt F)),
    nullary main_cst (constant S_ .f32 0x3F800000#32),
    unary main_cst main_v1 (broadcastInDim S2x2048x1 ![] bcast_S_S2x2048x1 : (⟨S_, .f32⟩ : BufTy).Contents (Elt F) → (⟨S2x2048x1, .f32⟩ : BufTy).Contents (Elt F)),
    binary main_arg0 main_v1 main_v2 ((fun a b => concatenate S2x2048x128 2 [⟨S2x2048x127, a⟩, ⟨S2x2048x1, b⟩] concatenates_S2x2048x127_S2x2048x1_S2x2048x128_d2) : (⟨S2x2048x127, .f32⟩ : BufTy).Contents (Elt F) → (⟨S2x2048x1, .f32⟩ : BufTy).Contents (Elt F) → (⟨S2x2048x128, .f32⟩ : BufTy).Contents (Elt F)),
    nullary main_v3 (iotaInDim S128 32 0),
    unary main_v3 main_v4 (broadcastInDim S128x1 ![0] bcast_S128_S128x1_0 : (⟨S128, .i32⟩ : BufTy).Contents (Elt F) → (⟨S128x1, .i32⟩ : BufTy).Contents (Elt F)),
    nullary main_v5 (iotaInDim S128 32 0),
    unary main_v5 main_v6 (broadcastInDim S1x128 ![1] bcast_S128_S1x128_1 : (⟨S128, .i32⟩ : BufTy).Contents (Elt F) → (⟨S1x128, .i32⟩ : BufTy).Contents (Elt F)),
    unary main_v4 main_v7 (broadcastInDim S128x128 ![0, 1] bcast_S128x1_S128x128_0_1 : (⟨S128x1, .i32⟩ : BufTy).Contents (Elt F) → (⟨S128x128, .i32⟩ : BufTy).Contents (Elt F)),
    unary main_v6 main_v8 (broadcastInDim S128x128 ![0, 1] bcast_S1x128_S128x128_0_1 : (⟨S1x128, .i32⟩ : BufTy).Contents (Elt F) → (⟨S128x128, .i32⟩ : BufTy).Contents (Elt F)),
    binary main_v7 main_v8 main_v9 (addi : (⟨S128x128, .i32⟩ : BufTy).Contents (Elt F) → (⟨S128x128, .i32⟩ : BufTy).Contents (Elt F) → (⟨S128x128, .i32⟩ : BufTy).Contents (Elt F)),
    nullary main_c (constantI S_ 32 128#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S128x128 ![] bcast_S_S128x128),
    TRef.binary (.of main_v9) main_call0.v3 main_call0.v4 Host.remsi,
    TRef.nullary main_call0.c_1 (constantI S_ 32 0#32),
    TRef.unary main_call0.c_1 main_call0.v5 (broadcastInDim S128x128 ![] bcast_S_S128x128),
    TRef.binary main_call0.v4 main_call0.v5 main_call0.v6 (cmpi .ne),
    TRef.nullary main_call0.c_2 (constantI S_ 32 0#32),
    TRef.unary main_call0.c_2 main_call0.v7 (broadcastInDim S128x128 ![] bcast_S_S128x128),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S128x128 ![] bcast_S_S128x128),
    TRef.binary main_call0.v8 main_call0.v10 main_call0.v11 (cmpi .ne),
    TRef.binary main_call0.v11 main_call0.v6 main_call0.v12 andi,
    TRef.unary main_call0.call0.v0 main_call0.v13 (broadcastInDim S128x128 ![] bcast_S_S128x128),
    TRef.binary main_call0.v4 main_call0.v13 main_call0.v14 addi,
    TRef.ternary main_call0.v12 main_call0.v14 main_call0.v4 main_call0.v15 select,
    nullary main_c_0 (constantI S_ 32 0#32),
    unary main_c_0 main_v11 (broadcastInDim S128x128 ![] bcast_S_S128x128 : (⟨S_, .i32⟩ : BufTy).Contents (Elt F) → (⟨S128x128, .i32⟩ : BufTy).Contents (Elt F)),
    binary main_v10 main_v11 main_v12 (cmpi .slt : (⟨S128x128, .i32⟩ : BufTy).Contents (Elt F) → (⟨S128x128, .i32⟩ : BufTy).Contents (Elt F) → (⟨S128x128, .i1⟩ : BufTy).Contents (Elt F)),
    nullary main_c_1 (constantI S_ 32 128#32),
    unary main_c_1 main_v13 (broadcastInDim S128x128 ![] bcast_S_S128x128 : (⟨S_, .i32⟩ : BufTy).Contents (Elt F) → (⟨S128x128, .i32⟩ : BufTy).Contents (Elt F)),
    binary main_v10 main_v13 main_v14 (addi : (⟨S128x128, .i32⟩ : BufTy).Contents (Elt F) → (⟨S128x128, .i32⟩ : BufTy).Contents (Elt F) → (⟨S128x128, .i32⟩ : BufTy).Contents (Elt F)),
    ternary main_v12 main_v14 main_v10 main_v15 (select : (⟨S128x128, .i1⟩ : BufTy).Contents (Elt F) → (⟨S128x128, .i32⟩ : BufTy).Contents (Elt F) → (⟨S128x128, .i32⟩ : BufTy).Contents (Elt F) → (⟨S128x128, .i32⟩ : BufTy).Contents (Elt F)),
    unary main_v15 main_v16 (broadcastInDim S128x128x1 ![0, 1] bcast_S128x128_S128x128x1_0_1 : (⟨S128x128, .i32⟩ : BufTy).Contents (Elt F) → (⟨S128x128x1, .i32⟩ : BufTy).Contents (Elt F)),
    binary main_arg1 main_v16 main_v17 ((fun x i => Host.gather gather_S128_S128x128x1_S128x128_n_0_n_n_0_2_1 x i) : (⟨S128, .f32⟩ : BufTy).Contents (Elt F) → (⟨S128x128x1, .i32⟩ : BufTy).Contents (Elt F) → (⟨S128x128, .f32⟩ : BufTy).Contents (Elt F)),
    unary main_v2 main_v18 (broadcastInDim S2x2048x128x1 ![0, 1, 2] bcast_S2x2048x128_S2x2048x128x1_0_1_2 : (⟨S2x2048x128, .f32⟩ : BufTy).Contents (Elt F) → (⟨S2x2048x128x1, .f32⟩ : BufTy).Contents (Elt F)),
    unary main_v17 main_v19 (broadcastInDim S1x1x128x128 ![2, 3] bcast_S128x128_S1x1x128x128_2_3 : (⟨S128x128, .f32⟩ : BufTy).Contents (Elt F) → (⟨S1x1x128x128, .f32⟩ : BufTy).Contents (Elt F)),
    unary main_v18 main_v20 (broadcastInDim S2x2048x128x128 ![0, 1, 2, 3] bcast_S2x2048x128x1_S2x2048x128x128_0_1_2_3 : (⟨S2x2048x128x1, .f32⟩ : BufTy).Contents (Elt F) → (⟨S2x2048x128x128, .f32⟩ : BufTy).Contents (Elt F)),
    unary main_v19 main_v21 (broadcastInDim S2x2048x128x128 ![0, 1, 2, 3] bcast_S1x1x128x128_S2x2048x128x128_0_1_2_3 : (⟨S1x1x128x128, .f32⟩ : BufTy).Contents (Elt F) → (⟨S2x2048x128x128, .f32⟩ : BufTy).Contents (Elt F)),
    binary main_v20 main_v21 main_v22 (mulf : (⟨S2x2048x128x128, .f32⟩ : BufTy).Contents (Elt F) → (⟨S2x2048x128x128, .f32⟩ : BufTy).Contents (Elt F) → (⟨S2x2048x128x128, .f32⟩ : BufTy).Contents (Elt F)) ]

set_option maxRecDepth 2048 in
/-- @main is that straight line: the two functions unfolded at their calls, and sequencing re-associated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    nullary_bufs_sub .., unary_bufs_sub .., unary_bufs_sub .., unary_bufs_sub .., binary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub .., unary_bufs_sub .., unary_bufs_sub .., unary_bufs_sub .., binary_bufs_sub ..⟩

/-- Every weakly fair execution of @main terminates, and every final state has each buffer at the operations' fold
    over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, read at the buffers that matter -/

/-- The arguments are written by no operation. -/
theorem fold_arg0 (V : Valuation τ sig (Elt F)) :
    after ops V (main_arg0 : DevRef τ sig) = V (main_arg0 : DevRef τ sig) := by
  after_results

theorem fold_arg1 (V : Valuation τ sig (Elt F)) :
    after ops V (main_arg1 : DevRef τ sig) = V (main_arg1 : DevRef τ sig) := by
  after_results

/-- The fold at the result buffer: the product of the two repeated arrays, each a function of one argument. -/
theorem fold_result (V : Valuation τ sig (Elt F)) :
    after ops V (main_v22 : DevRef τ sig)
      = mulf
          (broadcastInDim S2x2048x128x128 ![0, 1, 2, 3] bcast_S2x2048x128x1_S2x2048x128x128_0_1_2_3
            (broadcastInDim S2x2048x128x1 ![0, 1, 2] bcast_S2x2048x128_S2x2048x128x1_0_1_2
              (SharedInputs.padOnes (F := F) (V (main_arg0 : DevRef τ sig)))))
          (broadcastInDim S2x2048x128x128 ![0, 1, 2, 3] bcast_S1x1x128x128_S2x2048x128x128_0_1_2_3
            (broadcastInDim S1x1x128x128 ![2, 3] bcast_S128x128_S1x1x128x128_2_3
              (SharedInputs.circ (F := F) (V (main_arg1 : DevRef τ sig))))) := by
  after_results_simp
  rfl

/-- The reference's result is `outer (padOnes a) (circ w)` of its arguments. -/
theorem result_eq (V : Valuation τ sig (Elt F)) :
    after ops V (main_v22 : DevRef τ sig)
      = OuterRows.outer (SharedInputs.padOnes (F := F) (V (main_arg0 : DevRef τ sig)))
          (SharedInputs.circ (F := F) (V (main_arg1 : DevRef τ sig))) :=
  (fold_result V).trans (OuterRows.mul_repeats_eq_outer _ _ _ _ _ _)

/-- The run, read: the result buffer at `outer (padOnes a) (circ w)` of the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = OuterRows.outer (SharedInputs.padOnes (F := F) (m ((c.tc : Thread nD τ).loc main_arg0)))
              (SharedInputs.circ (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (result_eq _),
      (h c main_arg0).trans (fold_arg0 _),
      (h c main_arg1).trans (fold_arg1 _)⟩)
    (run_fold m ρ)

end Cert.ReferenceIdeal.RefValue

end
-- ==== Proof.lean ====
/-
  Both programs compute, for `a : [2, 2048, 127]` and `w : [128]`, the array of shape [2, 2048, 128, 128] whose entry
  (b, t, i, j) is `X (b, t, i) * W (i, j)`, where `X` is `a` with a column of ones appended along its last axis and
  `W (i, j) = w ((i + j) mod 128)`. Both build `X` and `W` by the same host operations (`SharedInputs.padOnes`,
  `SharedInputs.circ`). The kernel then forms the products block by block, 64 rows of one batch at a time
  (`KernelValue`); the reference repeats `X` and `W` to the full shape and multiplies entry by entry (`RefRun`).
  Each side ends at `OuterRows.outer (padOnes a) (circ w)`, so the results agree for any float values at all: no law of
  arithmetic is used and the precondition is not needed. The idealization rewrote nothing, so there is nothing to
  preserve.
-/
import proofs.«140977_j82446192214214_1_alg».proof.Defs
import proofs.«140977_j82446192214214_1_alg».proof.Proof.Gen.Kernel
import proofs.«140977_j82446192214214_1_alg».proof.Proof.Gen.Kernel.Frame
import proofs.«140977_j82446192214214_1_alg».proof.Proof.Gen.KernelIdeal
import proofs.«140977_j82446192214214_1_alg».proof.Proof.Gen.KernelIdeal.Frame
import proofs.«140977_j82446192214214_1_alg».proof.Proof.Gen.ReferenceIdeal
import proofs.«140977_j82446192214214_1_alg».proof.Proof.Gen.Pre_finite_inputs
import proofs.«140977_j82446192214214_1_alg».proof.Proof.KernelValue
import proofs.«140977_j82446192214214_1_alg».proof.Proof.RefRun
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- From memories that agree on the arguments, both programs end with the result array at `outer (padOnes a) (circ w)`. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
